-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x4 : Shape := ⟨3, ![64, 1024, 4]⟩
abbrev S_ : Shape := ⟨0, ![]⟩

class Facts : Prop where
  bcast_S_S64x1024x4 : S_.BroadcastsInDim S64x1024x4 (![] : Fin 0 → Fin S64x1024x4.rank)
  reducesTo_S64x1024x4_S_d0_1_2 : S64x1024x4.ReducesTo [0, 1, 2] S_
  h_S_ : 0 < S_.numel

variable [Facts]

def fn {F : FTy → Type} [FloatOps F] (main_arg0 : FVec F S64x1024x4 .f32) (main_arg1 : FVec F S64x1024x4 .f32) : IVec S_ 1 :=
  let main_v0 : FVec F S64x1024x4 .f32 := Host.absf main_arg0
  let main_cst : FVec F S_ .f32 := constant S_ .f32 0x7F800000#32
  let main_v1 : FVec F S64x1024x4 .f32 := broadcastInDim S64x1024x4 ![] bcast_S_S64x1024x4 main_cst
  let main_v2 : IVec S64x1024x4 1 := cmpf .olt main_v0 main_v1
  let main_c : IVec S_ 1 := constantI S_ 1 1#1
  let main_v3 : IVec S_ 1 := (fun x v => Host.reduce IntOp.andi x v reducesTo_S64x1024x4_S_d0_1_2 h_S_) main_v2 main_c
  let main_v4 : FVec F S64x1024x4 .f32 := Host.absf main_arg1
  let main_cst_0 : FVec F S_ .f32 := constant S_ .f32 0x7F800000#32
  let main_v5 : FVec F S64x1024x4 .f32 := broadcastInDim S64x1024x4 ![] bcast_S_S64x1024x4 main_cst_0
  let main_v6 : IVec S64x1024x4 1 := cmpf .olt main_v4 main_v5
  let main_c_1 : IVec S_ 1 := constantI S_ 1 1#1
  let main_v7 : IVec S_ 1 := (fun x v => Host.reduce IntOp.andi x v reducesTo_S64x1024x4_S_d0_1_2 h_S_) main_v6 main_c_1
  let main_v8 : IVec S_ 1 := andi main_v3 main_v7
  main_v8
-- ==== Kernel.lean ====
abbrev S64x1024x4 : Shape := ⟨3, ![64, 1024, 4]⟩
abbrev S1x1 : Shape := ⟨2, ![1, 1]⟩
abbrev S1x1024x4 : Shape := ⟨3, ![1, 1024, 4]⟩
abbrev S1024x4 : Shape := ⟨2, ![1024, 4]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S1 : Shape := ⟨1, ![1]⟩
abbrev S_ : Shape := ⟨0, ![]⟩

abbrev nBuf : Space → Nat
  | .hbm => 4
  | .vmem => 6
  | .smem => 0
  | _ => 0

abbrev bufTy : (tb : Table) → Fin (tcTables nBuf tb) → BufTy
  | .hbm, ⟨0, _⟩ => ⟨S64x1024x4, .f32⟩
  | .hbm, ⟨1, _⟩ => ⟨S64x1024x4, .f32⟩
  | .hbm, ⟨2, _⟩ => ⟨S1x1, .f32⟩
  | .hbm, ⟨3, _⟩ => ⟨S_, .f32⟩
  | .local _ .vmem, ⟨0, _⟩ => ⟨S1x1024x4, .f32⟩
  | .local _ .vmem, ⟨1, _⟩ => ⟨S1x1024x4, .f32⟩
  | .local _ .vmem, ⟨2, _⟩ => ⟨S1x1024x4, .f32⟩
  | .local _ .vmem, ⟨3, _⟩ => ⟨S1x1024x4, .f32⟩
  | .local _ .vmem, ⟨4, _⟩ => ⟨S1x1, .f32⟩
  | .local _ .vmem, ⟨5, _⟩ => ⟨S1x1, .f32⟩
  | _, _ => ⟨S64x1024x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v38 : BitVec 1 := Scalar.cmpi .eq arg0 c63_i32
  let v39 : BitVec 32 := Scalar.extui v38
  let c0_i32_17 : BitVec 32 := 0#32
  let v40 : BitVec 1 := Scalar.cmpi .ne v39 c0_i32_17
  v40

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1024x4_S1x1024x4_0_0_0 : ∀ a, (![0, 0, 0] : Fin 3 → Nat) a + S1x1024x4.size a ≤ S1x1024x4.size a
  h_S1x1024x4 : 0 < S1x1024x4.numel
  shapeCasts_S1x1024x4_S1024x4 : S1x1024x4.ShapeCasts S1024x4
  reduces_S1024x4_S1024 : S1024x4.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  reduces_S1024x1024_S1024 : S1024x1024.Reduces [1] S1024
  reduces_S1024x1024_S1024_2 : S1024x1024.Reduces [0] S1024
  shapeCasts_S1024_S1x1024 : S1024.ShapeCasts S1x1024
  reduces_S1x1024_S1 : S1x1024.Reduces [1] S1
  shapeCasts_S1_S1x1 : S1.ShapeCasts S1x1
  inpos_S1x1_p0_0 : ∀ a, (![0, 0] : Fin 2 → Nat) a < S1x1.size a
  shapeCasts_S1x1_S_ : S1x1.ShapeCasts S_
  dot_S1024x4_S1024x4_S1024x1024_1_1_0_0_n_n_wf : DotDims.WF S1024x4 S1024x4 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x4.size a ≤ S64x1024x4.size a
  hwx0_0 : ∀ i : grid0.Coords, EltTy.bits .f32 = 32 ∨ (Rect.block (s := S64x1024x4) S1x1024x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x4.size a ≤ S64x1024x4.size a
  hwx0_1 : ∀ i : grid0.Coords, EltTy.bits .f32 = 32 ∨ (Rect.block (s := S64x1024x4) S1x1024x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S1024x4_S1024x4_S1024x1024_1_1_0_0_n_n : DotDims S1024x4 S1024x4 S1024x1024 where
  lhsContracting := [1]
  rhsContracting := [1]
  lhsNonContracting := [0]
  rhsNonContracting := [0]
  lhsBatch := []
  rhsBatch := []
  wf := dot_S1024x4_S1024x4_S1024x1024_1_1_0_0_n_n_wf

abbrev win0_0 : Pipeline.Window sig grid0 :=
  Pipeline.Window.ofSpec (Memref.whole main_arg0) S1x1024x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x1024x4 : Shape := ⟨3, ![64, 1024, 4]⟩
abbrev S64x1024x1x4 : Shape := ⟨4, ![64, 1024, 1, 4]⟩
abbrev S64x1x1024x4 : Shape := ⟨4, ![64, 1, 1024, 4]⟩
abbrev S64x1024x1024x4 : Shape := ⟨4, ![64, 1024, 1024, 4]⟩
abbrev S_ : Shape := ⟨0, ![]⟩
abbrev S64x1024x1024 : Shape := ⟨3, ![64, 1024, 1024]⟩
abbrev S64x1024 : Shape := ⟨2, ![64, 1024]⟩

abbrev nBuf : Space → Nat
  | .hbm => 17
  | .vmem => 0
  | .smem => 0
  | _ => 0

abbrev bufTy : (tb : Table) → Fin (tcTables nBuf tb) → BufTy
  | .hbm, ⟨0, _⟩ => ⟨S64x1024x4, .f32⟩
  | .hbm, ⟨1, _⟩ => ⟨S64x1024x4, .f32⟩
  | .hbm, ⟨2, _⟩ => ⟨S64x1024x1x4, .f32⟩
  | .hbm, ⟨3, _⟩ => ⟨S64x1x1024x4, .f32⟩
  | .hbm, ⟨4, _⟩ => ⟨S64x1024x1024x4, .f32⟩
  | .hbm, ⟨5, _⟩ => ⟨S64x1024x1024x4, .f32⟩
  | .hbm, ⟨6, _⟩ => ⟨S64x1024x1024x4, .f32⟩
  | .hbm, ⟨7, _⟩ => ⟨S64x1024x1024x4, .f32⟩
  | .hbm, ⟨8, _⟩ => ⟨S_, .f32⟩
  | .hbm, ⟨9, _⟩ => ⟨S64x1024x1024, .f32⟩
  | .hbm, ⟨10, _⟩ => ⟨S_, .f32⟩
  | .hbm, ⟨11, _⟩ => ⟨S64x1024, .f32⟩
  | .hbm, ⟨12, _⟩ => ⟨S_, .f32⟩
  | .hbm, ⟨13, _⟩ => ⟨S64x1024, .f32⟩
  | .hbm, ⟨14, _⟩ => ⟨S64x1024, .f32⟩
  | .hbm, ⟨15, _⟩ => ⟨S_, .f32⟩
  | .hbm, ⟨16, _⟩ => ⟨S_, .f32⟩
  | _, _ => ⟨S64x1024x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S64x1024x4_S64x1024x1x4_0_1_3 : S64x1024x4.BroadcastsInDim S64x1024x1x4 (![0, 1, 3] : Fin 3 → Fin S64x1024x1x4.rank)
  bcast_S64x1024x4_S64x1x1024x4_0_2_3 : S64x1024x4.BroadcastsInDim S64x1x1024x4 (![0, 2, 3] : Fin 3 → Fin S64x1x1024x4.rank)
  bcast_S64x1024x1x4_S64x1024x1024x4_0_1_2_3 : S64x1024x1x4.BroadcastsInDim S64x1024x1024x4 (![0, 1, 2, 3] : Fin 4 → Fin S64x1024x1024x4.rank)
  bcast_S64x1x1024x4_S64x1024x1024x4_0_1_2_3 : S64x1x1024x4.BroadcastsInDim S64x1024x1024x4 (![0, 1, 2, 3] : Fin 4 → Fin S64x1024x1024x4.rank)
  reducesTo_S64x1024x1024x4_S64x1024x1024_d3 : S64x1024x1024x4.ReducesTo [3] S64x1024x1024
  h_S_ : 0 < S_.numel
  reducesTo_S64x1024x1024_S64x1024_d2 : S64x1024x1024.ReducesTo [2] S64x1024
  reducesTo_S64x1024x1024_S64x1024_d1 : S64x1024x1024.ReducesTo [1] S64x1024
  reducesTo_S64x1024_S_d0_1 : S64x1024.ReducesTo [0, 1] S_

variable [Facts₀]

class Facts : Prop extends Facts₀ where

variable [Facts]
-- ==== Proof.ScratchValue.lean ====
/-
  What the body leaves behind at a grid point, as values, and what the scratch holds after each point.

  The generated frame runs the body once per control case and records, for the scratch the kernel carries
  between points and for the output's staging buffer, the pieces its stores leave. Read back as values: at
  the first point (case A) the scratch is first stored the zero and then that zero plus the point's total, so
  it is left at `pay2 x0 x1 zero`; at every later point (cases B and C) the one store leaves the old contents
  plus the point's total, `pay2 x0 x1 old`; at the last point (case C) the output's buffer is stored the
  scratch as just updated, the same value. Here `pay2` is the body's second payload, the accumulation step,
  and `zero` its first, the splat of +0.0.

  Hence, by induction on the point, the scratch after point `n` is the chain `pay2 (blocks n) (… (pay2
  (blocks 0) zero))` over the input windows' blocks at the points so far.
-/
import proofs.«131138_j34815004901801_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.ScratchValue

open Cert.KernelIdeal Cert.KernelIdeal.Gen

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-! ## The cases' pieces as values -/

/-- Case A (the first point): the scratch ends at the accumulation step over the zero just stored. -/
theorem scratch_A (c : Dev nD) (i : grid0.Coords) (a1 : Memref sig .tc .vmem S1x1024x4 .f32) (h1 : a1.IsWhole)
    (a2 : Memref sig .tc .vmem S1x1024x4 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 x1 : Vec F S1x1024x4 .f32) :
    sout0_A_0 c i a1 h1 a2 h2 a3 h3 a4 h4 hc0 hc1 x0 x1 = k0_pay2 x0 x1 (k0_pay1 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz]
  simp only [View.readAt_eq_ld, h1.read_unread, h2.read_unread, View.readCov_unit_zero (S := S1x1) _ hz,
    View.ld_unit_zero (S := S1x1024x4) hz3]

/-- Case B (a middle point): the scratch ends at the accumulation step over what it held. -/
theorem scratch_B (c : Dev nD) (i : grid0.Coords) (a1 : Memref sig .tc .vmem S1x1024x4 .f32) (h1 : a1.IsWhole)
    (a2 : Memref sig .tc .vmem S1x1024x4 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 x1 : Vec F S1x1024x4 .f32) (xs : Vec F S1x1 .f32) :
    sout0_B_0 c i a1 h1 a2 h2 a3 h3 a4 h4 hc0 hc1 x0 x1 xs = k0_pay2 x0 x1 xs := by
  unfold sout0_B_0
  rw [View.read_writes_eq_canon _ _ _ (scover0_B_0 c i a1 h1 a2 h2 a3 h3 a4 h4 hc0 hc1 x0 x1 xs)]
  unfold kernelRun0_B
  dsimp only
  sl_unfold_words
  rw [View.canon_unit_zero hz]
  simp only [View.readAt_eq_ld, h1.read_unread, h2.read_unread, h4.read_unread, View.ld_unit_zero (S := S1x1) hz,
    View.ld_unit_zero (S := S1x1024x4) hz3]

/-- Case C (the last point): the scratch likewise, -/
theorem scratch_C (c : Dev nD) (i : grid0.Coords) (a1 : Memref sig .tc .vmem S1x1024x4 .f32) (h1 : a1.IsWhole)
    (a2 : Memref sig .tc .vmem S1x1024x4 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S1x1024x4 .f32) (xs : Vec F S1x1 .f32) :
    sout0_C_0 c i a1 h1 a2 h2 a3 h3 a4 h4 hc0 hc1 x0 x1 xs = k0_pay2 x0 x1 xs := by
  unfold sout0_C_0
  rw [View.read_writes_eq_canon _ _ _ (scover0_C_0 c i a1 h1 a2 h2 a3 h3 a4 h4 hc0 hc1 x0 x1 xs)]
  unfold kernelRun0_C
  dsimp only
  sl_unfold_words
  rw [View.canon_unit_zero hz]
  simp only [View.readAt_eq_ld, h1.read_unread, h2.read_unread, h4.read_unread, View.ld_unit_zero (S := S1x1) hz,
    View.ld_unit_zero (S := S1x1024x4) hz3]

/-- and the output's buffer is stored the scratch read back after that update: the same value. -/
theorem out_C (c : Dev nD) (i : grid0.Coords) (a1 : Memref sig .tc .vmem S1x1024x4 .f32) (h1 : a1.IsWhole)
    (a2 : Memref sig .tc .vmem S1x1024x4 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S1x1024x4 .f32) (xs : Vec F S1x1 .f32) :
    out0_C_2 c i a1 h1 a2 h2 a3 h3 a4 h4 hc0 hc1 x0 x1 xs = k0_pay2 x0 x1 xs := by
  unfold out0_C_2
  rw [View.read_writes_eq_canon _ _ _ (cover0_C_2 c i a1 h1 a2 h2 a3 h3 a4 h4 hc0 hc1 x0 x1 xs)]
  unfold kernelRun0_C
  dsimp only
  sl_unfold_words
  rw [View.canon_unit_zero hz]
  simp only [View.readAt_eq_ld, h1.read_unread, h2.read_unread, h4.read_unread, View.readCov_unit_zero (S := S1x1) _ hz,
    View.ld_unit_zero (S := S1x1) hz, View.ld_unit_zero (S := S1x1024x4) hz3]

/-! ## The scratch after each point -/

variable (m : (ℓ : Loc nD τ sig) → Buf (Elt F) ℓ)

/-- The two input windows' blocks at a point, at their literal type: batch `t`'s two clouds. -/
abbrev pblk (c : Dev nD) (t : Fin cfg0.N) : Vec F S1x1024x4 .f32 := iblk m c 0 t
abbrev qblk (c : Dev nD) (t : Fin cfg0.N) : Vec F S1x1024x4 .f32 := iblk m c 1 t

/-- The accumulation chain: the step over the zero at the first point, then over the point before. -/
def acc (c : Dev nD) : (n : ℕ) → n < cfg0.N → Vec F S1x1 .f32
  | 0, h => k0_pay2 (pblk m c ⟨0, h⟩) (qblk m c ⟨0, h⟩) (k0_pay1 (F := F))
  | n + 1, h => k0_pay2 (pblk m c ⟨n + 1, h⟩) (qblk m c ⟨n + 1, h⟩) (acc c n (Nat.lt_of_succ_lt h))

/-- After point `n` the carried scratch holds the chain up to `n`: by induction on the point, the case read
    off the point's number (the first point is case A; the last, case C; the others, case B). -/
theorem scratchAt_eq (c : Dev nD) : ∀ (n : ℕ) (h : n < cfg0.N), (outsAt0 m c n h).2 = acc m c n h
  | 0, h => by
    rw [outsAt0_A m c ⟨0, h⟩ rfl (show ¬(0 % 64 = 63) by decide)]
    dsimp only
    exact scratch_A c _ _ _ _ _ _ _ _ _ _ _ (pblk m c ⟨0, h⟩) (qblk m c ⟨0, h⟩)
  | n + 1, h => by
    have hN : cfg0.N = 64 := N_0
    have h0 : ¬(⟨n + 1, h⟩ : Fin cfg0.N).val % 64 = 0 := by dsimp only; omega
    by_cases h1 : (⟨n + 1, h⟩ : Fin cfg0.N).val % 64 = 63
    · rw [outsAt0_C m c ⟨n + 1, h⟩ h0 h1]
      dsimp only
      refine (scratch_C c _ _ _ _ _ _ _ _ _ _ _ (pblk m c ⟨n + 1, h⟩) (qblk m c ⟨n + 1, h⟩) _).trans ?_
      show k0_pay2 (pblk m c ⟨n + 1, h⟩) (qblk m c ⟨n + 1, h⟩) (outsAt0 m c n _).2 = k0_pay2 (pblk m c ⟨n + 1, h⟩) (qblk m c ⟨n + 1, h⟩) (acc m c n _)
      rw [scratchAt_eq c n]
    · rw [outsAt0_B m c ⟨n + 1, h⟩ h0 h1]
      dsimp only
      refine (scratch_B c _ _ _ _ _ _ _ _ _ _ _ (pblk m c ⟨n + 1, h⟩) (qblk m c ⟨n + 1, h⟩) _).trans ?_
      show k0_pay2 (pblk m c ⟨n + 1, h⟩) (qblk m c ⟨n + 1, h⟩) (outsAt0 m c n _).2 = k0_pay2 (pblk m c ⟨n + 1, h⟩) (qblk m c ⟨n + 1, h⟩) (acc m c n _)
      rw [scratchAt_eq c n]

/-- At the last point the output's staging buffer is stored the scratch as just updated: the whole chain. -/
theorem outAt_last (c : Dev nD) (n : ℕ) (h : n + 1 < cfg0.N) (h1 : (n + 1) % 64 = 63) :
    (outsAt0 m c (n + 1) h).1 = acc m c (n + 1) h := by
  have hN : cfg0.N = 64 := N_0
  have h0 : ¬(⟨n + 1, h⟩ : Fin cfg0.N).val % 64 = 0 := by dsimp only; omega
  rw [outsAt0_C m c ⟨n + 1, h⟩ h0 h1]
  dsimp only
  refine (out_C c _ _ _ _ _ _ _ _ _ _ _ (pblk m c ⟨n + 1, h⟩) (qblk m c ⟨n + 1, h⟩) _).trans ?_
  show k0_pay2 (pblk m c ⟨n + 1, h⟩) (qblk m c ⟨n + 1, h⟩) (outsAt0 m c n _).2 = k0_pay2 (pblk m c ⟨n + 1, h⟩) (qblk m c ⟨n + 1, h⟩) (acc m c n _)
  rw [scratchAt_eq m c n]

end Cert.KernelIdeal.ScratchValue

end
-- ==== Proof.Chamfer.lean ====
/-
  The chamfer loss on the extended reals, in the two arrangements the two programs compute, and the law
  between them.

  For one batch, with points `a i` and `b j` in four coordinates, the squared distance is
  `∑ d, (a i d - b j d)²`; the loss of the batch is the sum over `i` of the least distance from `a i` to any
  `b j`, plus the sum over `j` of the least distance from `b j` to any `a i`; the loss is the sum over the
  batches. One arrangement expands the square, `‖a‖² + ‖b‖² - 2·⟨a, b⟩`, and adds the batches one after the
  other onto a running total that starts at zero; the other sums the squares of the differences and adds,
  over all (batch, point) pairs at once, the two least distances that share the point's number.

  The expansion of the square is an identity of REAL numbers: on the extended reals it fails where an infinity
  meets its opposite, so it is stated for coordinates that are real. Everything after it — the least values
  (the same fold of `min` from the same starting value on both sides) and the rearrangement of the sums — is
  commutativity and associativity of `+`, which hold on all extended reals.
-/
import Idealize.ShloMosaic.PureOps.Ideal.Laws

noncomputable section

namespace Cert.Chamfer

open Idealize.ShloMosaic
open scoped BigOperators

/-- The three float constants the programs spell, as extended reals: `+0.0`, `2.0` and `+∞`. -/
abbrev zero : EReal := Ideal.ofBits .f32 0x00000000#32
abbrev two : EReal := Ideal.ofBits .f32 0x40000000#32
abbrev pinf : EReal := Ideal.ofBits .f32 0x7F800000#32

/-- `2.0` denotes the real number two. -/
theorem two_eq : two = ((2 : ℝ) : EReal) := by
  simp [two, Ideal.ofBits, Ideal.ieee, -EReal.coe_mul]; norm_num

/-- `+∞`'s pattern denotes the top element. -/
theorem pinf_eq : pinf = ⊤ := by
  simp [pinf, Ideal.ofBits, Ideal.ieee]

/-- The squared distance as a sum of squared differences, from zero. -/
def sqDist (a b : Fin 4 → EReal) : EReal := zero + ∑ d, (a d - b d) * (a d - b d)

/-- The squared distance with the square expanded. -/
def expDist (a b : Fin 4 → EReal) : EReal := ((∑ d, a d * a d) + ∑ d, b d * b d) - two * ∑ d, a d * b d

/-- For real coordinates the two are the same number: `∑ (x - y)² = ∑ x² + ∑ y² - 2 ∑ x y`. -/
theorem expDist_eq_sqDist (a b : Fin 4 → EReal) (ha : ∀ d, ∃ r : ℝ, a d = r) (hb : ∀ d, ∃ r : ℝ, b d = r) :
    expDist a b = sqDist a b := by
  choose a' ha using ha
  choose b' hb using hb
  unfold expDist sqDist
  simp only [Fin.sum_univ_four, ha, hb, two_eq, zero, Ideal.ofBits_zero_f32, zero_add]
  norm_cast
  ring

/-- The least distance from point `i` of the first cloud to the second cloud, and from point `j` of the second
    to the first: folds of `min` from `+∞` along a row and along a column of the distance table. -/
def rowMin (D : Fin 1024 → Fin 1024 → EReal) (i : Fin 1024) : EReal :=
  (Finset.univ : Finset (Fin 1024)).fold min pinf fun j => D i j
def colMin (D : Fin 1024 → Fin 1024 → EReal) (j : Fin 1024) : EReal :=
  (Finset.univ : Finset (Fin 1024)).fold min pinf fun i => D i j

/-- One batch's loss: the row minima summed, plus the column minima summed. -/
def batchLoss (D : Fin 1024 → Fin 1024 → EReal) : EReal := (∑ i, rowMin D i) + ∑ j, colMin D j

/-- The running total after batch `n`, the batches added in order onto zero. -/
def runSum (T : ℕ → EReal) : ℕ → EReal
  | 0 => zero + T 0
  | n + 1 => runSum T n + T (n + 1)

/-- The running total is zero plus the sum of the batches so far. -/
theorem runSum_eq (T : ℕ → EReal) (n : ℕ) : runSum T n = zero + ∑ b ∈ Finset.range (n + 1), T b := by
  induction n with
  | zero => simp [runSum]
  | succ n ih => rw [runSum, ih, Finset.sum_range_succ _ (n + 1), add_assoc]

/-- The loss with every (batch, point) pair's two minima added first and all pairs summed at once. -/
def pairedLoss (D : Fin 64 → Fin 1024 → Fin 1024 → EReal) : EReal :=
  zero + ∑ b : Fin 64, ∑ i : Fin 1024, (rowMin (D b) i + colMin (D b) i)

/-- THE LAW. If the two distance tables agree entry by entry, the running total after the last of the 64
    batches is the paired loss: the inner sums split (`∑ (f + g) = ∑ f + ∑ g`) and a sum over `range 64`
    is the sum over `Fin 64`. -/
theorem runSum_eq_pairedLoss (DK DR : Fin 64 → Fin 1024 → Fin 1024 → EReal) (h : ∀ b i j, DK b i j = DR b i j)
    (T : ℕ → EReal) (hT : ∀ b : Fin 64, T b.val = batchLoss (DK b)) : runSum T 63 = pairedLoss DR := by
  have hD : DK = DR := funext fun b => funext fun i => funext fun j => h b i j
  subst hD
  rw [runSum_eq, Finset.sum_range (fun b => T b)]
  unfold pairedLoss
  refine congrArg (zero + ·) (Finset.sum_congr rfl fun b _ => ?_)
  rw [hT b, Finset.sum_add_distrib]
  rfl

end Cert.Chamfer

end
-- ==== Proof.LibColumn.lean ====
/-
  Column forms of the keep-dimension layout operations, read at an index: a vector of `a` entries reshaped to
  an `[a, 1]` column holds, in row `i`, entry `i`; and an `[a, 1]` column broadcast along the second axis to
  `[a, b]` holds, at `(p, c)`, the column's entry of row `p`, whatever `c`. (The row forms `[a] → [1, a]` and
  `[1, b] → [a, b]` are the library's `shapeCast_a_1a_apply` and `broadcastTo_1b_ab_apply`.) Stated for every
  extent and every element type.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibMinFold.lean ====
/-
  A minimum over ONE axis, read at an index, for every shape, axis and float format, at the ideal values: a
  kernel's `vector.multi_reduction <minimumf>` and the host's one-operand `stablehlo.reduce` with a minimum body
  are both the fold of `min`, from the initial value, over that axis's coordinates — the reduced index with the
  coordinate put back (`Shape.Reduces.lift`). `min` on the extended reals commutes and associates, so the order
  in which either side visits the coordinates does not matter, and the two folds are the same term.
-/
import Idealize.ShloMosaic.PureOps.Ideal.Laws

namespace Cert.LibMinFold

open Idealize.ShloMosaic

variable {φ : FTy}

/-- A kernel's minimum over one axis at a reduced index `j`: the fold of `min` from the accumulator's value
    over the axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]
  exact h.fold_filter_drop_single _ _ src j

/-- The host's minimum over one axis at a reduced index `j`: the same fold, from the initial value's element. -/
theorem hostReduce_minimumf_single {s t u : Shape} {a : Fin s.rank} (x : s.Idx → Ideal φ) (init : u.Idx → Ideal φ)
    (h' : s.ReducesTo [a] t) (h : s.Reduces [a] t) (hu : 0 < u.numel) (j : t.Idx) :
    Host.reduce FloatOps.minimumf x init h' hu j
      = (Finset.univ : Finset (Fin (s.size a))).fold min (init (Shape.Idx.first hu)) (x ∘ h.lift j) :=
  Host.reduce_eq_fold_single FloatOps.minimumf x init h' h hu j

end Cert.LibMinFold
-- ==== Proof.PointValue.lean ====
/-
  What ONE grid point adds to the running total, as a number.

  At a grid point the kernel holds one batch's two clouds as [1, 1024, 4] blocks `x0`, `x1`. Each operation
  of the body that is not pointwise is read here at an index, over variables of the literal vector types:
    • the sum of squares along a row of a [1024, 4] array is `∑ d, v (i, d)²`;
    • the matrix product of a [1024, 4] array with another, contracted over the four coordinates, is at (i, j)
      the inner product `∑ d, v (i, d) · w (j, d)`;
    • the minimum of a [1024, 1024] table along its rows, and along its columns, from `+∞`, is the fold of `min`;
    • the sum of a [1024] vector, taken as a [1, 1024] array reduced along its lanes and read at its one entry.
  Composed: the table's entry (i, j) is the expanded squared distance between point `i` of `x0` and point `j`
  of `x1`, and the value the body stores is the scratch's old entry plus that batch's loss.
-/
import proofs.«131138_j34815004901801_1_alg».proof.Proof.Gen.KernelIdeal.Skeleton
import proofs.«131138_j34815004901801_1_alg».proof.Proof.Chamfer
import proofs.«131138_j34815004901801_1_alg».proof.Proof.LibColumn
import proofs.«131138_j34815004901801_1_alg».proof.Proof.LibMinFold
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PointValue

open Idealize.ShloMosaic Idealize.ShloMosaic.ValueIdx Cert.KernelIdeal Cert.KernelIdeal.Gen Cert.Chamfer

/-! ## The reductions -/

/-- The sum of squares along row `i`. -/
theorem rowSq_apply (v : FVec Ideal S1024x4 .f32) (h : S1024x4.Reduces [1] S1024) (hφ : FKind.Formats .f32)
    (hacc : (0x00000000#32 : BitVec 32) = FKind.add.neutral .f32 hφ) (i : Fin 1024) :
    multiReduction .add [1] S1024 (mulf v v) 0x00000000#32 h hφ hacc (ix1 i) = ∑ d : Fin 4, v (ix2 i d) * v (ix2 i d) := by
  refine (Ideal.multiReduction_add_single (mulf v v) 0x00000000#32 h hφ hacc (ix1 i)).trans ?_
  refine Finset.sum_congr rfl fun d _ => ?_
  have e : h.lift (ix1 i) d = ix2 i d := funext fun a => Fin.ext (by match a with | ⟨0, _⟩ => rfl | ⟨1, _⟩ => rfl)
  rw [e]; rfl

/-- The least entry of row `i` of a table, from `+∞`. -/
theorem rowMin_apply (D : FVec Ideal S1024x1024 .f32) (h : S1024x1024.Reduces [1] S1024) (hφ : FKind.Formats .f32)
    (hacc : (0x7F800000#32 : BitVec 32) = FKind.minimumf.neutral .f32 hφ) (i : Fin 1024) :
    multiReduction .minimumf [1] S1024 D 0x7F800000#32 h hφ hacc (ix1 i) = rowMin (fun a b => D (ix2 a b)) i := by
  refine (Cert.LibMinFold.multiReduction_minimumf_single D 0x7F800000#32 h hφ hacc (ix1 i)).trans ?_
  unfold rowMin
  refine congrArg (fun f => (Finset.univ : Finset (Fin 1024)).fold min pinf f) (funext fun j => ?_)
  exact congrArg D (funext fun a => Fin.ext (by match a with | ⟨0, _⟩ => rfl | ⟨1, _⟩ => rfl))

/-- The least entry of column `j` of a table, from `+∞`. -/
theorem colMin_apply (D : FVec Ideal S1024x1024 .f32) (h : S1024x1024.Reduces [0] S1024) (hφ : FKind.Formats .f32)
    (hacc : (0x7F800000#32 : BitVec 32) = FKind.minimumf.neutral .f32 hφ) (j : Fin 1024) :
    multiReduction .minimumf [0] S1024 D 0x7F800000#32 h hφ hacc (ix1 j) = colMin (fun a b => D (ix2 a b)) j := by
  refine (Cert.LibMinFold.multiReduction_minimumf_single D 0x7F800000#32 h hφ hacc (ix1 j)).trans ?_
  unfold colMin
  refine congrArg (fun f => (Finset.univ : Finset (Fin 1024)).fold min pinf f) (funext fun i => ?_)
  exact congrArg D (funext fun a => Fin.ext (by match a with | ⟨0, _⟩ => rfl | ⟨1, _⟩ => rfl))

/-- The sum of a vector's 1024 entries: the vector as one row, that row's lanes summed, the one entry read. -/
theorem laneSum_apply (v : FVec Ideal S1024 .f32) (hc : S1024.ShapeCasts S1x1024) (h : S1x1024.Reduces [1] S1)
    (hφ : FKind.Formats .f32) (hacc : (0x00000000#32 : BitVec 32) = FKind.add.neutral .f32 hφ)
    (hc' : S1.ShapeCasts S1x1) (hp : ∀ a, (![0, 0] : Fin 2 → Nat) a < S1x1.size a) :
    extractAt ![0, 0] (shapeCast S1x1 (multiReduction .add [1] S1 (shapeCast S1x1024 v hc) 0x00000000#32 h hφ hacc) hc') hp
      = ∑ k : Fin 1024, v (ix1 k) := by
  unfold extractAt
  have e0 : (fun a => (⟨(![0, 0] : Fin 2 → Nat) a, hp a⟩ : Fin (S1x1.size a))) = ix2 (0 : Fin 1) (0 : Fin 1) :=
    funext fun a => Fin.ext (by match a with | ⟨0, _⟩ => rfl | ⟨1, _⟩ => rfl)
  rw [e0]
  refine (shapeCast_a_1a_apply _ hc' (0 : Fin 1) (0 : Fin 1)).trans ?_
  refine (Ideal.multiReduction_add_single (shapeCast S1x1024 v hc) 0x00000000#32 h hφ hacc (ix1 (0 : Fin 1))).trans ?_
  refine Finset.sum_congr rfl fun k _ => ?_
  have e : h.lift (ix1 (0 : Fin 1)) k = ix2 (0 : Fin 1) k := funext fun a => Fin.ext (by match a with | ⟨0, _⟩ => rfl | ⟨1, _⟩ => rfl)
  rw [e]
  exact shapeCast_a_1a_apply v hc (0 : Fin 1) k

/-! ## The matrix product -/

theorem lhs_0 (i : S1024x1024.Idx) (q : dot_S1024x4_S1024x4_S1024x1024_1_1_0_0_n_n.contr.Idx) :
    (dot_S1024x4_S1024x4_S1024x1024_1_1_0_0_n_n.lhsIdx i q 0).val = (i 0).val := by
  unfold DotDims.lhsIdx
  rw [dif_neg (show ¬(0 : Fin S1024x4.rank) ∈ dot_S1024x4_S1024x4_S1024x1024_1_1_0_0_n_n.lhsBatch by decide),
    dif_pos (show (0 : Fin S1024x4.rank) ∈ dot_S1024x4_S1024x4_S1024x1024_1_1_0_0_n_n.lhsNonContracting by decide)]
  rfl
theorem lhs_1 (i : S1024x1024.Idx) (q : dot_S1024x4_S1024x4_S1024x1024_1_1_0_0_n_n.contr.Idx) :
    (dot_S1024x4_S1024x4_S1024x1024_1_1_0_0_n_n.lhsIdx i q 1).val = (q ⟨0, by decide⟩).val :=
  dot_S1024x4_S1024x4_S1024x1024_1_1_0_0_n_n.lhsIdx_val_of_single rfl i q
theorem rhs_0 (i : S1024x1024.Idx) (q : dot_S1024x4_S1024x4_S1024x1024_1_1_0_0_n_n.contr.Idx) :
    (dot_S1024x4_S1024x4_S1024x1024_1_1_0_0_n_n.rhsIdx i q 0).val = (i 1).val := by
  unfold DotDims.rhsIdx
  rw [dif_neg (show ¬(0 : Fin S1024x4.rank) ∈ dot_S1024x4_S1024x4_S1024x1024_1_1_0_0_n_n.rhsBatch by decide),
    dif_pos (show (0 : Fin S1024x4.rank) ∈ dot_S1024x4_S1024x4_S1024x1024_1_1_0_0_n_n.rhsNonContracting by decide)]
  rfl
theorem rhs_1 (i : S1024x1024.Idx) (q : dot_S1024x4_S1024x4_S1024x1024_1_1_0_0_n_n.contr.Idx) :
    (dot_S1024x4_S1024x4_S1024x1024_1_1_0_0_n_n.rhsIdx i q 1).val = (q ⟨0, by decide⟩).val :=
  dot_S1024x4_S1024x4_S1024x1024_1_1_0_0_n_n.rhsIdx_val_of_single rfl i q

/-- Entry (i, j) of the product into the zero table: the inner product of row `i` of `v` and row `j` of `w`. -/
theorem cross_apply (v w : FVec Ideal S1024x4 .f32) (i j : Fin 1024) :
    matmul dot_S1024x4_S1024x4_S1024x1024_1_1_0_0_n_n (some .fp32) v w (constant (F := Ideal) S1024x1024 .f32 0x00000000#32) (ix2 i j)
      = ∑ d : Fin 4, v (ix2 i d) * w (ix2 j d) := by
  refine (Ideal.matmul_constant_zero_apply dot_S1024x4_S1024x4_S1024x1024_1_1_0_0_n_n (some .fp32) v w (ix2 i j)).trans ?_
  rw [← Equiv.sum_comp (contrEquiv1 dot_S1024x4_S1024x4_S1024x1024_1_1_0_0_n_n 4 rfl rfl).symm]
  refine Finset.sum_congr rfl fun d _ => ?_
  have hk := contrEquiv1_symm_val dot_S1024x4_S1024x4_S1024x1024_1_1_0_0_n_n 4 rfl rfl d
  have el : dot_S1024x4_S1024x4_S1024x1024_1_1_0_0_n_n.lhsIdx (ix2 i j) ((contrEquiv1 dot_S1024x4_S1024x4_S1024x1024_1_1_0_0_n_n 4 rfl rfl).symm d) = ix2 i d :=
    funext fun a => Fin.ext (by
      match a with
      | ⟨0, _⟩ => exact lhs_0 _ _
      | ⟨1, _⟩ => exact (lhs_1 _ _).trans hk)
  have er : dot_S1024x4_S1024x4_S1024x1024_1_1_0_0_n_n.rhsIdx (ix2 i j) ((contrEquiv1 dot_S1024x4_S1024x4_S1024x1024_1_1_0_0_n_n 4 rfl rfl).symm d) = ix2 j d :=
    funext fun a => Fin.ext (by
      match a with
      | ⟨0, _⟩ => exact rhs_0 _ _
      | ⟨1, _⟩ => exact (rhs_1 _ _).trans hk)
  rw [el, er]

/-! ## The distance table and the stored value -/

/-- Entry (i, j) of the table `(‖v i‖² + ‖w j‖²) - 2 · ⟨v i, w j⟩`: the row norms as a column broadcast along the
    rows, the same column transposed into a row and broadcast along the columns, and twice the matrix product. -/
theorem table_apply (v w : FVec Ideal S1024x4 .f32) (hr : S1024x4.Reduces [1] S1024) (hφ : FKind.Formats .f32)
    (hacc : (0x00000000#32 : BitVec 32) = FKind.add.neutral .f32 hφ) (hc : S1024.ShapeCasts S1024x1)
    (hb1 : S1024x1.Broadcasts S1024x1024) (ht : S1024x1.Transposes [1, 0] S1x1024) (hb2 : S1x1024.Broadcasts S1024x1024)
    (i j : Fin 1024) :
    subf (addf (broadcastTo S1024x1024 (shapeCast S1024x1 (multiReduction .add [1] S1024 (mulf v v) 0x00000000#32 hr hφ hacc) hc) hb1)
               (broadcastTo S1024x1024 (transpose S1x1024 [1, 0] (shapeCast S1024x1 (multiReduction .add [1] S1024 (mulf w w) 0x00000000#32 hr hφ hacc) hc) ht) hb2))
         (mulf (broadcast S1024x1024 (FloatOps.ofBits (F := Ideal) .f32 0x40000000#32))
               (matmul dot_S1024x4_S1024x4_S1024x1024_1_1_0_0_n_n (some .fp32) v w (constant (F := Ideal) S1024x1024 .f32 0x00000000#32))) (ix2 i j)
      = expDist (fun d => v (ix2 i d)) (fun d => w (ix2 j d)) := by
  refine (subf_apply _ _ _).trans ?_
  unfold expDist
  refine congrArg₂ (fun a b : EReal => a - b) ?_ ?_
  · refine (addf_apply _ _ _).trans (congrArg₂ (fun a b : EReal => a + b) ?_ ?_)
    · exact (Cert.LibColumn.broadcastTo_a1_ab_apply _ hb1 i j).trans
        ((Cert.LibColumn.shapeCast_a_a1_apply _ hc i (0 : Fin 1)).trans (rowSq_apply v hr hφ hacc i))
    · exact (broadcastTo_1b_ab_apply _ hb2 i j).trans ((transpose_ix2_apply _ ht (0 : Fin 1) j).trans
        ((Cert.LibColumn.shapeCast_a_a1_apply _ hc j (0 : Fin 1)).trans (rowSq_apply w hr hφ hacc j)))
  · refine (mulf_apply _ _ _).trans (congrArg₂ (fun a b : EReal => a * b) rfl ?_)
    exact cross_apply v w i j

/-- THE VALUE ONE POINT STORES: the scratch's old entry plus the batch's loss, the distances in expanded form, read
    off the two staged blocks (row `i`, coordinate `d` of a block is its entry (0, i, d)). -/
theorem pay2_apply (x0 x1 : Vec Ideal S1x1024x4 .f32) (xs : Vec Ideal S1x1 .f32) (y : S1x1.Idx) :
    k0_pay2 x0 x1 xs y
      = xs y + batchLoss (fun i j => expDist (fun d => x0 (ix3 (0 : Fin 1) i d)) (fun d => x1 (ix3 (0 : Fin 1) j d))) := by
  have hD : ∀ a b : Fin 1024,
      expDist (fun d => shapeCast S1024x4 x0 shapeCasts_S1x1024x4_S1024x4 (ix2 a d))
          (fun d => shapeCast S1024x4 x1 shapeCasts_S1x1024x4_S1024x4 (ix2 b d))
        = expDist (fun d => x0 (ix3 (0 : Fin 1) a d)) (fun d => x1 (ix3 (0 : Fin 1) b d)) := fun a b =>
    congrArg₂ expDist (funext fun d => shapeCast_1ab_ab_apply x0 _ a d) (funext fun d => shapeCast_1ab_ab_apply x1 _ b d)
  unfold k0_pay2
  dsimp only
  refine (congrFun (shapeCast_self _ _) y).trans ?_
  refine (addf_apply _ _ _).trans (congrArg (fun a : EReal => xs y + a) ?_)
  refine (broadcast_apply _ _).trans ?_
  refine (Ideal.scalar_addf_def _ _).trans ?_
  unfold batchLoss
  refine congrArg₂ (fun a b : EReal => a + b) ((laneSum_apply _ _ _ _ _ _ _).trans ?_) ((laneSum_apply _ _ _ _ _ _ _).trans ?_)
  · refine Finset.sum_congr rfl fun i _ => ?_
    refine (rowMin_apply _ _ _ _ i).trans ?_
    refine congrArg (fun D => rowMin D i) (funext fun a => funext fun b => ?_)
    exact (table_apply _ _ _ _ _ _ _ _ _ a b).trans (hD a b)
  · refine Finset.sum_congr rfl fun j _ => ?_
    refine (colMin_apply _ _ _ _ j).trans ?_
    refine congrArg (fun D => colMin D j) (funext fun a => funext fun b => ?_)
    exact (table_apply _ _ _ _ _ _ _ _ _ a b).trans (hD a b)

end Cert.KernelIdeal.PointValue

end
-- ==== Proof.KernelResult.lean ====
/-
  The kernel's result, as a number.

  At the ideal values the accumulation chain the scratch holds after point `n` is the running total of the
  batches' losses up to `n`: each step adds to the old entry the loss of the point's batch, the distances in
  expanded form. A block of an input window at point `t` is batch `t` of its argument array, so those distances
  are between the points of batch `t` of `p` and of `q`. The output's one block is written back once, after the
  last point, with the whole chain; the host's reshape of that [1, 1] array to a scalar is the program's result.
-/
import proofs.«131138_j34815004901801_1_alg».proof.Proof.ScratchValue
import proofs.«131138_j34815004901801_1_alg».proof.Proof.PointValue
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.ScratchValue Cert.KernelIdeal.PointValue Cert.Chamfer

variable (m : (ℓ : Loc nD τ sig) → Buf (Elt Ideal) ℓ) (ρ : Dev nD → PrngReg)

/-! ## The chain is the running total -/

/-- The expanded distances between the two blocks staged at point `t`. -/
abbrev blockDist (c : Dev nD) (t : Fin cfg0.N) (i j : Fin 1024) : EReal :=
  expDist (fun d => pblk m c t (ix3 (0 : Fin 1) i d)) (fun d => qblk m c t (ix3 (0 : Fin 1) j d))

/-- The loss of the batch staged at point `k` (zero past the grid's end, where nothing is read). -/
def pointLoss (c : Dev nD) (k : ℕ) : EReal :=
  if h : k < cfg0.N then batchLoss (blockDist m c ⟨k, h⟩) else 0

/-- The splat of +0.0 the first point stores reads `zero` at its one entry. -/
theorem pay1_apply (y : S1x1.Idx) : k0_pay1 (F := Ideal) y = zero := by
  unfold k0_pay1
  exact congrFun (shapeCast_self _ _) y

/-- After point `n` the chain's one entry is the running total of the losses of points 0 to `n`. -/
theorem acc_apply (c : Dev nD) (y : S1x1.Idx) : ∀ (n : ℕ) (h : n < cfg0.N), acc m c n h y = runSum (pointLoss m c) n
  | 0, h => by
    show k0_pay2 (pblk m c ⟨0, h⟩) (qblk m c ⟨0, h⟩) (k0_pay1 (F := Ideal)) y = zero + pointLoss m c 0
    rw [pay2_apply, pay1_apply, pointLoss, dif_pos h]
  | n + 1, h => by
    show k0_pay2 (pblk m c ⟨n + 1, h⟩) (qblk m c ⟨n + 1, h⟩) (acc m c n (Nat.lt_of_succ_lt h)) y
      = runSum (pointLoss m c) n + pointLoss m c (n + 1)
    rw [pay2_apply, acc_apply c y n, pointLoss, dif_pos h]

/-! ## A block is a batch -/

/-- The input windows' index maps: block `t` is batch `t`, whole in the other two axes. -/
theorem idx_in : ∀ t : Fin cfg0.N,
    (win0_0.index t 0 = t.val ∧ win0_0.index t 1 = 0 ∧ win0_0.index t 2 = 0)
    ∧ (win0_1.index t 0 = t.val ∧ win0_1.index t 1 = 0 ∧ win0_1.index t 2 = 0) :=
  (by decide +kernel : ∀ t : Fin grid0.N,
    (win0_0.index t 0 = t.val ∧ win0_0.index t 1 = 0 ∧ win0_0.index t 2 = 0)
    ∧ (win0_1.index t 0 = t.val ∧ win0_1.index t 1 = 0 ∧ win0_1.index t 2 = 0))

/-- Point `t` as a batch number. -/
abbrev batch (t : Fin cfg0.N) : Fin 64 := ⟨t.val, lt_of_lt_of_eq t.isLt N_0⟩

/-- Entry (0, i, d) of `p`'s block at point `t` is entry (t, i, d) of `p`. -/
theorem pblk_apply (c : Dev nD) (t : Fin cfg0.N) (i : Fin 1024) (d : Fin 4) :
    pblk m c t (ix3 (0 : Fin 1) i d) = m ((c : Thread nD τ).loc main_arg0) (ix3 (batch t) i d) := by
  show iblk m c 0 t _ = _
  unfold iblk
  rw [View.read_apply]
  show V m c main_arg0 _ = m ((c : Thread nD τ).loc main_arg0) _
  rw [V_main_arg0]
  congr 1
  funext a
  apply Fin.ext
  have hi := (idx_in t).1
  match a with
  | ⟨0, _⟩ => show win0_0.index t 0 * 1 + 1 * 0 = t.val; rw [hi.1]; omega
  | ⟨1, _⟩ => show win0_0.index t 1 * 1024 + 1 * i.val = i.val; rw [hi.2.1]; omega
  | ⟨2, _⟩ => show win0_0.index t 2 * 4 + 1 * d.val = d.val; rw [hi.2.2]; omega

/-- The same for `q`. -/
theorem qblk_apply (c : Dev nD) (t : Fin cfg0.N) (j : Fin 1024) (d : Fin 4) :
    qblk m c t (ix3 (0 : Fin 1) j d) = m ((c : Thread nD τ).loc main_arg1) (ix3 (batch t) j d) := by
  show iblk m c 1 t _ = _
  unfold iblk
  rw [View.read_apply]
  show V m c main_arg1 _ = m ((c : Thread nD τ).loc main_arg1) _
  rw [V_main_arg1]
  congr 1
  funext a
  apply Fin.ext
  have hi := (idx_in t).2
  match a with
  | ⟨0, _⟩ => show win0_1.index t 0 * 1 + 1 * 0 = t.val; rw [hi.1]; omega
  | ⟨1, _⟩ => show win0_1.index t 1 * 1024 + 1 * j.val = j.val; rw [hi.2.1]; omega
  | ⟨2, _⟩ => show win0_1.index t 2 * 4 + 1 * d.val = d.val; rw [hi.2.2]; omega

/-- The expanded distances of the two argument arrays, batch by batch. -/
abbrev argDist (c : Dev nD) (b : Fin 64) (i j : Fin 1024) : EReal :=
  expDist (fun d => m ((c : Thread nD τ).loc main_arg0) (ix3 b i d)) (fun d => m ((c : Thread nD τ).loc main_arg1) (ix3 b j d))

/-- The loss at point `b` is the loss of batch `b` of the arguments. -/
theorem pointLoss_eq (c : Dev nD) (b : Fin 64) : pointLoss m c b.val = batchLoss (argDist m c b) := by
  have hb : b.val < cfg0.N := lt_of_lt_of_eq b.isLt N_0.symm
  rw [pointLoss, dif_pos hb]
  refine congrArg batchLoss (funext fun i => funext fun j => ?_)
  exact congrArg₂ expDist (funext fun d => pblk_apply m c ⟨b.val, hb⟩ i d) (funext fun d => qblk_apply m c ⟨b.val, hb⟩ j d)

/-! ## The result array and the program's result -/

/-- The last point of the grid. -/
abbrev tLast : Fin cfg0.N := ⟨63, by rw [show cfg0.N = 64 from N_0]; decide⟩

/-- What the output array ends holding: the whole chain (its one block IS the array). -/
abbrev outArr (c : Dev nD) : Buf (Elt Ideal) ((c : Thread nD τ).loc main_v0) := acc m c 63 tLast.isLt

/-- The one write-back, after the last point, writes the whole chain. -/
theorem flushed_eq (c : Dev nD) (t : Fin cfg0.N) (hf : (cfg0.win 2).flush t = true) :
    (dats m 0 c).flushed 2 t = ((cfg0.win 2).blk t).view.read (Elt Ideal) (outArr m c) := by
  have hN : cfg0.N = 64 := N_0
  have h63 : t.val = 63 := by have := (flush0_2 t).mp hf; have := t.isLt; omega
  obtain rfl : t = tLast := Fin.ext h63
  show (cfg0.win 2).cut (grid0.coords tLast) ((dats m 0 c).after 2 tLast) = _
  rw [after0_2]
  have hl : (outsAt0 m c tLast.val tLast.isLt).1 = acc m c 63 tLast.isLt := outAt_last m c 62 tLast.isLt (by decide)
  rw [hl]
  have hz' : (fun a => win0_2.index tLast a * main_v0.ty.shape.size a) = fun _ => 0 := funext fun a => by fin_cases a <;> decide
  exact (Memref.read_access_unit_zero (Elt Ideal) main_v0 hz' (fun a => by rw [congrFun hz' a]; simp) (outArr m c)).symm

/-- So the output array ends holding the whole chain: the last point's block covers its one entry. -/
theorem final_out (c : Dev nD) : (dats m 0 c).arrAt 2 cfg0.N = outArr m c :=
  (dats m 0 c).arrAt_eq_of_cover 2 (outArr m c) (flushed_eq m c) fun i =>
    ⟨tLast, (flush0_2 tLast).mpr rfl, by
      show i ∈ ((View.whole main_v0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index tLast 0 * win0_2.size 0 ≤ (i 0 : Nat) ∧ (i 0 : Nat) < win0_2.index tLast 0 * win0_2.size 0 + win0_2.xsize (grid0.coords tLast) 0
        rw [show win0_2.index tLast 0 * win0_2.size 0 = 0 from by decide +kernel, show win0_2.xsize (grid0.coords tLast) 0 = 1 from by decide +kernel]; omega
      | ⟨1, _⟩ =>
        show win0_2.index tLast 1 * win0_2.size 1 ≤ (i 1 : Nat) ∧ (i 1 : Nat) < win0_2.index tLast 1 * win0_2.size 1 + win0_2.xsize (grid0.coords tLast) 1
        rw [show win0_2.index tLast 1 * win0_2.size 1 = 0 from by decide +kernel, show win0_2.xsize (grid0.coords tLast) 1 = 1 from by decide +kernel]; omega⟩

/-- The kernel's loss: the running total after the last of the 64 points. -/
def loss (c : Dev nD) : EReal := runSum (pointLoss m c) 63

/-- The host's reshape of the [1, 1] result array to a scalar holds the loss. -/
theorem tail_eq (c : Dev nD) :
    Pipeline.afterTail₀ cfgs (dats m) 0 (V0 m) [hostOps1] c main_v1 = fun _ => loss m c := by
  unfold Pipeline.afterTail₀
  show StableHlo.after hostOps1 _ (Proc.devRef .tc main_v1) = _
  after_results
  funext y
  show shapeCast S_ (Pipeline.withArrays (cfgs 0).spec c (V0 m c) (fun w => (dats m 0 c).arrAt w (cfgs 0).N)
    (Proc.tc.devRef main_v0)) shapeCasts_S1x1_S_ y = loss m c
  refine (shapeCast_apply _ _ y (ix2 (0 : Fin 1) (0 : Fin 1)) ?_).trans ?_
  · show (S1x1.rowMajor (ix2 (0 : Fin 1) (0 : Fin 1))).val = (S_.rowMajor y).val
    have h1 : (S1x1.rowMajor (ix2 (0 : Fin 1) (0 : Fin 1))).val < 1 := (S1x1.rowMajor _).isLt
    have h2 : (S_.rowMajor y).val < 1 := (S_.rowMajor y).isLt
    omega
  · refine (congrFun ((Pipeline.withArrays_arr spec0 launch0.win.arr_inj c _ _ 2).trans (final_out m c)) _).trans ?_
    exact acc_apply m c _ 63 _

/-- THE RUN, READ: every weakly fair execution ends with the scalar result at the loss and the arguments unchanged. -/
theorem run : θ_run defs (onTc (τ := τ) (main (F := Ideal))) ⟨m, fun _ => 0, ρ⟩ fun r => ∀ c : Dev nD,
      r.2.mem ((c : Thread nD τ).loc main_v1) = (fun _ => loss m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).2 main_v1 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Result

end
-- ==== Proof.RefValue.lean ====
/-
  The reference, read: its result is the paired chamfer loss of its two arguments.

  The reference forms, for every batch `b` and every pair (i, j), the sum over the four coordinates of the
  squared difference, from zero; takes the minimum along `j` and the minimum along `i`, each from +∞; adds the
  two [64, 1024] arrays of minima entry by entry; and sums all entries from zero. Read at an index, stage by
  stage: the two broadcasts put `p (b, i, d)` and `q (b, j, d)` at (b, i, j, d); a minimum over one axis is
  the fold of `min` over that axis's coordinates; the last sum runs over all (b, i) pairs.
-/
import proofs.«131138_j34815004901801_1_alg».proof.Proof.Gen.ReferenceIdeal.Read
import proofs.«131138_j34815004901801_1_alg».proof.Proof.Chamfer
import proofs.«131138_j34815004901801_1_alg».proof.Proof.LibMinFold
import Idealize.ShloMosaic.Lib.ValueIdx

noncomputable section

namespace Cert.ReferenceIdeal.RefValue

open Idealize.ShloMosaic Idealize.ShloMosaic.ValueIdx Cert.ReferenceIdeal Cert.ReferenceIdeal.Gen Cert.ReferenceIdeal.Read
open Cert.Chamfer

/-- The squared distances of batch `b`, as a table. -/
abbrev dist (x0 x1 : (⟨S64x1024x4, .f32⟩ : BufTy).Contents (Elt Ideal)) (b : Fin 64) (i j : Fin 1024) : EReal :=
  sqDist (fun d => x0 (ix3 b i d)) (fun d => x1 (ix3 b j d))

/-- Entry (b, i, j) of the summed squares is the squared distance between point `i` of `p`'s batch `b` and point
    `j` of `q`'s. -/
theorem dist_apply (x0 x1 : (⟨S64x1024x4, .f32⟩ : BufTy).Contents (Elt Ideal)) (b : Fin 64) (i j : Fin 1024) :
    val_main_v6 (F := Ideal) x0 x1 (ix3 b i j) = dist x0 x1 b i j := by
  rw [val_main_v6_apply]
  unfold dist sqDist
  refine congrArg₂ (fun a b : EReal => a + b) rfl (Finset.sum_congr rfl fun k _ => ?_)
  rw [val_main_v5_apply, val_main_v4_apply, val_main_v2_apply, val_main_v3_apply, val_main_v0_apply, val_main_v1_apply]
  have e0 : idx_main_v0 (idx_main_v2 (idx_main_v6 (ix3 b i j) k)) = ix3 b i k :=
    funext fun a => Fin.ext (by match a with | ⟨0, _⟩ => rfl | ⟨1, _⟩ => rfl | ⟨2, _⟩ => rfl)
  have e1 : idx_main_v1 (idx_main_v3 (idx_main_v6 (ix3 b i j) k)) = ix3 b j k :=
    funext fun a => Fin.ext (by match a with | ⟨0, _⟩ => rfl | ⟨1, _⟩ => rfl | ⟨2, _⟩ => rfl)
  rw [e0, e1]
  rfl

/-- The minimum along `j`: the least distance from point `i` of `p`'s batch to `q`'s batch. -/
theorem rowMin_apply (x0 x1 : (⟨S64x1024x4, .f32⟩ : BufTy).Contents (Elt Ideal)) (b : Fin 64) (i : Fin 1024) :
    val_main_v7 (F := Ideal) x0 x1 (ix2 b i) = rowMin (dist x0 x1 b) i := by
  have hr : S64x1024x1024.Reduces [2] S64x1024 := by decide
  unfold val_main_v7
  refine (Cert.LibMinFold.hostReduce_minimumf_single _ _ reducesTo_S64x1024x1024_S64x1024_d2 hr h_S_ (ix2 b i)).trans ?_
  unfold rowMin
  refine congrArg (fun f => (Finset.univ : Finset (Fin 1024)).fold min pinf f) (funext fun j => ?_)
  have e : hr.lift (ix2 b i) j = ix3 b i j :=
    funext fun a => Fin.ext (by match a with | ⟨0, _⟩ => rfl | ⟨1, _⟩ => rfl | ⟨2, _⟩ => rfl)
  show val_main_v6 (F := Ideal) x0 x1 (hr.lift (ix2 b i) j) = _
  rw [e]
  exact dist_apply x0 x1 b i j

/-- The minimum along `i`: the least distance from point `j` of `q`'s batch to `p`'s batch. -/
theorem colMin_apply (x0 x1 : (⟨S64x1024x4, .f32⟩ : BufTy).Contents (Elt Ideal)) (b : Fin 64) (j : Fin 1024) :
    val_main_v8 (F := Ideal) x0 x1 (ix2 b j) = colMin (dist x0 x1 b) j := by
  have hr : S64x1024x1024.Reduces [1] S64x1024 := by decide
  unfold val_main_v8
  refine (Cert.LibMinFold.hostReduce_minimumf_single _ _ reducesTo_S64x1024x1024_S64x1024_d1 hr h_S_ (ix2 b j)).trans ?_
  unfold colMin
  refine congrArg (fun f => (Finset.univ : Finset (Fin 1024)).fold min pinf f) (funext fun i => ?_)
  have e : hr.lift (ix2 b j) i = ix3 b i j :=
    funext fun a => Fin.ext (by match a with | ⟨0, _⟩ => rfl | ⟨1, _⟩ => rfl | ⟨2, _⟩ => rfl)
  show val_main_v6 (F := Ideal) x0 x1 (hr.lift (ix2 b j) i) = _
  rw [e]
  exact dist_apply x0 x1 b i j

/-- THE REFERENCE'S RESULT: the paired loss of the squared distances. -/
theorem result_eq (x0 x1 : (⟨S64x1024x4, .f32⟩ : BufTy).Contents (Elt Ideal)) (y : S_.Idx) :
    val_main_v10 (F := Ideal) x0 x1 y = pairedLoss (dist x0 x1) := by
  rw [val_main_v10_apply, sum_idx2]
  unfold pairedLoss
  refine congrArg₂ (fun a b : EReal => a + b) rfl
    (Finset.sum_congr rfl fun b _ => Finset.sum_congr rfl fun i _ => ?_)
  rw [val_main_v9_apply]
  exact congrArg₂ (fun a b : EReal => a + b) (rowMin_apply x0 x1 b i) (colMin_apply x0 x1 b i)

end Cert.ReferenceIdeal.RefValue

end
-- ==== Proof.Finite.lean ====
/-
  The precondition, read: every entry of both arguments is a real number.

  The printed precondition compares, entry by entry, the absolute value `max x (-x)` with +∞, takes the
  conjunction over all entries of each argument, and the conjunction of the two. If it holds, each comparison
  holds; and an extended real whose absolute value is below +∞ is neither infinity, so it is a real.
-/
import proofs.«131138_j34815004901801_1_alg».proof.Pre_finite_inputs
import proofs.«131138_j34815004901801_1_alg».proof.Proof.Chamfer
import Idealize.ShloMosaic.Lib.ReduceAll
import Idealize.ShloMosaic.Lib.ValueIdx

noncomputable section

namespace Cert.Pre_finite_inputs.Finite

open Idealize.ShloMosaic Cert.Pre_finite_inputs

instance : Subsingleton S_.Idx := ⟨fun a b => funext fun d => d.elim0⟩

/-- An extended real whose absolute value compares below +∞ is a real. -/
theorem real_of_abs_lt (x : EReal) (h : Ideal.cmp .olt (max x (-x)) Cert.Chamfer.pinf = 1#1) : ∃ r : ℝ, x = r := by
  rw [Cert.Chamfer.pinf_eq] at h
  induction x using EReal.rec with
  | bot => simp [Ideal.cmp] at h
  | coe r => exact ⟨r, rfl⟩
  | top => simp [Ideal.cmp] at h

/-- Under the precondition every entry of both arguments is a real. -/
theorem real_of_pre [Cert.Pre_finite_inputs.Facts] (x y : FVec Ideal S64x1024x4 .f32)
    (h : fn (F := Ideal) x y = fun _ => 1#1) :
    (∀ i, ∃ r : ℝ, x i = r) ∧ (∀ i, ∃ r : ℝ, y i = r) := by
  have h0 := congrFun h ValueIdx.ix0
  unfold fn at h0
  dsimp only at h0
  have h1 := IntOp.andi_eq_one.mp h0
  exact ⟨fun i => real_of_abs_lt (x i) (Host.reduce_andi_all _ _ _ _ _ h1.1 i),
    fun i => real_of_abs_lt (y i) (Host.reduce_andi_all _ _ _ _ _ h1.2 i)⟩

end Cert.Pre_finite_inputs.Finite

end
-- ==== Proof.lean ====
/-
  The chamfer loss of two batches of point clouds, `p` and `q` of shape [64, 1024, 4]: the kernel against the
  reference, over the extended reals.

  THE KERNEL visits the 64 batches one after the other. For one batch it forms the table of squared distances
  by expanding the square, `‖p i‖² + ‖q j‖² - 2·⟨p i, q j⟩` (row norms, a matrix product over the four
  coordinates), takes the least entry of every row and of every column, sums the two vectors of minima, and
  adds the batch's total onto a one-entry scratch that the first batch resets to zero; after the last batch the
  scratch is copied to the [1, 1] result, which the host reshapes to a scalar.
  THE REFERENCE forms the squared distances as sums of squared differences for all batches at once, takes the
  same two minima, adds the two [64, 1024] arrays of minima and sums every entry.

  Both compute `∑ b, (∑ i, min j, D b i j + ∑ j, min i, D b i j)`. Two things separate them:
    • the expansion of the square, an identity of real numbers that fails where an infinity meets its
      opposite — so the claim uses the precondition, under which every coordinate is a real;
    • the order and grouping of the outer sums, which commutativity and associativity of `+` settle on all
      extended reals (the minima are the same fold of `min` from the same +∞ on both sides, never evaluated).

  The modules: `Chamfer` (the two arrangements and the law between them), `PointValue` (what one grid point adds,
  as a number), `ScratchValue` (what the scratch holds after each point, by induction on the point),
  `KernelResult` (the kernel's run read as the running total of the batches), `RefValue` (the reference's run
  read stage by stage), `Finite` (the precondition read as "every entry is real"); here, the five claims.
-/
import proofs.«131138_j34815004901801_1_alg».proof.Defs
import proofs.«131138_j34815004901801_1_alg».proof.Proof.Gen.Kernel
import proofs.«131138_j34815004901801_1_alg».proof.Proof.Gen.Kernel.Skeleton
import proofs.«131138_j34815004901801_1_alg».proof.Proof.Gen.Kernel.Launch
import proofs.«131138_j34815004901801_1_alg».proof.Proof.Gen.Kernel.Points
import proofs.«131138_j34815004901801_1_alg».proof.Proof.Gen.Kernel.Frame
import proofs.«131138_j34815004901801_1_alg».proof.Proof.Gen.KernelIdeal
import proofs.«131138_j34815004901801_1_alg».proof.Proof.Gen.KernelIdeal.Skeleton
import proofs.«131138_j34815004901801_1_alg».proof.Proof.Gen.KernelIdeal.Launch
import proofs.«131138_j34815004901801_1_alg».proof.Proof.Gen.KernelIdeal.Points
import proofs.«131138_j34815004901801_1_alg».proof.Proof.Gen.KernelIdeal.Frame
import proofs.«131138_j34815004901801_1_alg».proof.Proof.Gen.ReferenceIdeal
import proofs.«131138_j34815004901801_1_alg».proof.Proof.Gen.Pre_finite_inputs
import proofs.«131138_j34815004901801_1_alg».proof.Proof.Gen.ReferenceIdeal.Run
import proofs.«131138_j34815004901801_1_alg».proof.Proof.Gen.ReferenceIdeal.Read
import proofs.«131138_j34815004901801_1_alg».proof.Proof.KernelResult
import proofs.«131138_j34815004901801_1_alg».proof.Proof.RefValue
import proofs.«131138_j34815004901801_1_alg».proof.Proof.Finite
import Idealize.ShloMosaic.Adequacy
import Idealize.ShloMosaic.Init

noncomputable section

namespace Cert.Proof

open Idealize.ShloMosaic Idealize.SL.Sem

/-- The word-level kernel runs, faults nowhere and leaves its arguments as they were. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on `p` and `q`, both real in every entry, the kernel's scalar — the running total of
    the 64 batches' losses, the squares expanded — and the reference's — the paired loss of the squared
    differences — are the same extended real. -/
theorem algebraic : Cert.algebraic_KernelIdeal_ReferenceIdeal := by
  intro m ρ m' ρ' hpre hagree
  refine ⟨fun c _ => Cert.KernelIdeal.Result.loss m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, (hagree c).1, (hagree c).2]
  funext y
  rw [Cert.ReferenceIdeal.RefValue.result_eq]
  obtain ⟨hp, hq⟩ := Cert.Pre_finite_inputs.Finite.real_of_pre _ _ (hpre c)
  exact (Cert.Chamfer.runSum_eq_pairedLoss (Cert.KernelIdeal.Result.argDist m c) _
    (fun b i j => Cert.Chamfer.expDist_eq_sqDist _ _ (fun d => hp _) (fun d => hq _))
    (Cert.KernelIdeal.Result.pointLoss m c) (Cert.KernelIdeal.Result.pointLoss_eq m c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
